-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x48 : Shape := ⟨2, ![64, 48]⟩
abbrev S48 : Shape := ⟨1, ![48]⟩
abbrev S48x32 : Shape := ⟨2, ![48, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x48 : S_.BroadcastsInDim S64x48 (![] : Fin 0 → Fin S64x48.rank)
  reducesTo_S64x48_S_d0_1 : S64x48.ReducesTo [0, 1] S_
  bcast_S_S48 : S_.BroadcastsInDim S48 (![] : Fin 0 → Fin S48.rank)
  reducesTo_S48_S_d0 : S48.ReducesTo [0] S_
  bcast_S_S48x32 : S_.BroadcastsInDim S48x32 (![] : Fin 0 → Fin S48x32.rank)
  reducesTo_S48x32_S_d0_1 : S48x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S48x32 1) : IVec S_ 1 :=
  let main_c_5 : IVec S_ 1 := constantI S_ 1 1#1
  let main_v17 : IVec S_ 1 := (fun x v => Host.reduce IntOp.andi x v reducesTo_S48x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x48 .f32) (main_arg3 : FVec F S48 .f32) (main_arg4 : FVec F S48x32 .f32) (main_arg5 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x48 .f32 := Host.absf main_arg2
  let main_cst_0 : FVec F S_ .f32 := constant S_ .f32 0x7F800000#32
  let main_v5 : FVec F S64x48 .f32 := broadcastInDim S64x48 ![] bcast_S_S64x48 main_cst_0
  let main_v6 : IVec S64x48 1 := cmpf .olt main_v4 main_v5
  let main_c_1 : IVec S_ 1 := constantI S_ 1 1#1
  let main_v7 : IVec S_ 1 := (fun x v => Host.reduce IntOp.andi x v reducesTo_S64x48_S_d0_1 h_S_) main_v6 main_c_1
  let main_v8 : IVec S_ 1 := andi main_v3 main_v7
  let main_v9 : FVec F S48 .f32 := Host.absf main_arg3
  let main_cst_2 : FVec F S_ .f32 := constant S_ .f32 0x7F800000#32
  let main_v10 : FVec F S48 .f32 := broadcastInDim S48 ![] bcast_S_S48 main_cst_2
  let main_v11 : IVec S48 1 := cmpf .olt main_v9 main_v10
  let main_c_3 : IVec S_ 1 := constantI S_ 1 1#1
  let main_v12 : IVec S_ 1 := (fun x v => Host.reduce IntOp.andi x v reducesTo_S48_S_d0 h_S_) main_v11 main_c_3
  let main_v13 : IVec S_ 1 := andi main_v8 main_v12
  let main_v14 : FVec F S48x32 .f32 := Host.absf main_arg4
  let main_cst_4 : FVec F S_ .f32 := constant S_ .f32 0x7F800000#32
  let main_v15 : FVec F S48x32 .f32 := broadcastInDim S48x32 ![] bcast_S_S48x32 main_cst_4
  let main_v16 : IVec S48x32 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x48 : Shape := ⟨2, ![64, 48]⟩
abbrev S48 : Shape := ⟨1, ![48]⟩
abbrev S48x32 : Shape := ⟨2, ![48, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x48 : Shape := ⟨2, ![100000, 48]⟩
abbrev S10000x64 : Shape := ⟨2, ![10000, 64]⟩
abbrev S10000x48 : Shape := ⟨2, ![10000, 48]⟩
abbrev S1700000x48 : Shape := ⟨2, ![1700000, 48]⟩
abbrev S1x48 : Shape := ⟨2, ![1, 48]⟩
abbrev S100000x32 : Shape := ⟨2, ![100000, 32]⟩
abbrev S10000x32 : Shape := ⟨2, ![10000, 32]⟩
abbrev S1700000x32 : Shape := ⟨2, ![1700000, 32]⟩
abbrev S1x32 : Shape := ⟨2, ![1, 32]⟩

abbrev nBuf : Space → Nat
  | .hbm => 87
  | .vmem => 11
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x48, .f32⟩
  | .hbm, ⟨3, _⟩ => ⟨S48, .f32⟩
  | .hbm, ⟨4, _⟩ => ⟨S48x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x48, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x48, .f32⟩
  | .hbm, ⟨59, _⟩ => ⟨S1700000x1, .f32⟩
  | .hbm, ⟨60, _⟩ => ⟨S1700000x48, .f32⟩
  | .hbm, ⟨61, _⟩ => ⟨S1700000x48, .f32⟩
  | .hbm, ⟨62, _⟩ => ⟨S_, .f32⟩
  | .hbm, ⟨63, _⟩ => ⟨S100000x48, .f32⟩
  | .hbm, ⟨64, _⟩ => ⟨S1700000x1, .i32⟩
  | .hbm, ⟨65, _⟩ => ⟨S100000x48, .f32⟩
  | .hbm, ⟨66, _⟩ => ⟨S1x48, .f32⟩
  | .hbm, ⟨67, _⟩ => ⟨S100000x32, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x32, .f32⟩
  | .hbm, ⟨77, _⟩ => ⟨S1700000x1, .f32⟩
  | .hbm, ⟨78, _⟩ => ⟨S1700000x32, .f32⟩
  | .hbm, ⟨79, _⟩ => ⟨S1700000x32, .f32⟩
  | .hbm, ⟨80, _⟩ => ⟨S_, .f32⟩
  | .hbm, ⟨81, _⟩ => ⟨S100000x32, .f32⟩
  | .hbm, ⟨82, _⟩ => ⟨S1700000x1, .i32⟩
  | .hbm, ⟨83, _⟩ => ⟨S100000x32, .f32⟩
  | .hbm, ⟨84, _⟩ => ⟨S1x32, .f32⟩
  | .hbm, ⟨85, _⟩ => ⟨S100000x32, .f32⟩
  | .hbm, ⟨86, _⟩ => ⟨S100000x32, .f32⟩
  | .local _ .vmem, ⟨0, _⟩ => ⟨S10000x64, .f32⟩
  | .local _ .vmem, ⟨1, _⟩ => ⟨S10000x64, .f32⟩
  | .local _ .vmem, ⟨2, _⟩ => ⟨S64x48, .f32⟩
  | .local _ .vmem, ⟨3, _⟩ => ⟨S10000x48, .f32⟩
  | .local _ .vmem, ⟨4, _⟩ => ⟨S10000x48, .f32⟩
  | .local _ .vmem, ⟨5, _⟩ => ⟨S10000x48, .f32⟩
  | .local _ .vmem, ⟨6, _⟩ => ⟨S10000x48, .f32⟩
  | .local _ .vmem, ⟨7, _⟩ => ⟨S1x48, .f32⟩
  | .local _ .vmem, ⟨8, _⟩ => ⟨S48x32, .f32⟩
  | .local _ .vmem, ⟨9, _⟩ => ⟨S10000x32, .f32⟩
  | .local _ .vmem, ⟨10, _⟩ => ⟨S10000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_c_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x48 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x48 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S48x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x48_S64x48_0_0 : ∀ a, (![0, 0] : Fin 2 → Nat) a + S64x48.size a ≤ S64x48.size a
  h_S64x48 : 0 < S64x48.numel
  inb_S10000x48_S10000x48_0_0 : ∀ a, (![0, 0] : Fin 2 → Nat) a + S10000x48.size a ≤ S10000x48.size a
  h_S10000x48 : 0 < S10000x48.numel
  bcast_S1700000x1_S1700000x48_0_1 : S1700000x1.BroadcastsInDim S1700000x48 (![0, 1] : Fin 2 → Fin S1700000x48.rank)
  bcast_S_S100000x48 : S_.BroadcastsInDim S100000x48 (![] : Fin 0 → Fin S100000x48.rank)
  shapeCasts_S48_S1x48 : S48.ShapeCasts S1x48
  shapeCasts_S10000x48_S10000x48 : S10000x48.ShapeCasts S10000x48
  inb_S1x48_S1x48_0_0 : ∀ a, (![0, 0] : Fin 2 → Nat) a + S1x48.size a ≤ S1x48.size a
  h_S1x48 : 0 < S1x48.numel
  shapeCasts_S1x48_S1x48 : S1x48.ShapeCasts S1x48
  broadcasts_S1x48_S10000x48 : S1x48.Broadcasts S10000x48
  inb_S48x32_S48x32_0_0 : ∀ a, (![0, 0] : Fin 2 → Nat) a + S48x32.size a ≤ S48x32.size a
  h_S48x32 : 0 < S48x32.numel
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x48_S10000x48_1_0_0_1_n_n_wf : DotDims.WF S10000x64 S64x48 S10000x48 [1] [0] [0] [1] [] []
  gather_S100000x48_S1700000x1_S1700000x48_1_0_n_n_0_1_148_wf : GatherDims.WF S100000x48 S1700000x1 S1700000x48 [1] [0] [] [0] [] 1 ![1, 48]
  scatter_S100000x48_S1700000x1_S1700000x48_1_0_0_1_wf : ScatterDims.WF S100000x48 S1700000x1 S1700000x48 [1] [0] [0] 1
  dot_S10000x48_S48x32_S10000x32_1_0_0_1_n_n_wf : DotDims.WF S10000x48 S48x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x48.size a ≤ S64x48.size a
  hwx0_1 : ∀ i : grid0.Coords, EltTy.bits .f32 = 32 ∨ (Rect.block (s := S64x48) S64x48.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x48.size a ≤ S100000x48.size a
  hwx0_2 : ∀ i : grid0.Coords, EltTy.bits .f32 = 32 ∨ (Rect.block (s := S100000x48) S10000x48.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x48.size a ≤ S100000x48.size a
  hwx1_0 : ∀ i : grid1.Coords, EltTy.bits .f32 = 32 ∨ (Rect.block (s := S100000x48) S10000x48.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x48.size a ≤ S1x48.size a
  hwx1_1 : ∀ i : grid1.Coords, EltTy.bits .f32 = 32 ∨ (Rect.block (s := S1x48) S1x48.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S48x32.size a ≤ S48x32.size a
  hwx1_2 : ∀ i : grid1.Coords, EltTy.bits .f32 = 32 ∨ (Rect.block (s := S48x32) S48x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x32.size a ≤ S100000x32.size a
  hwx1_3 : ∀ i : grid1.Coords, EltTy.bits .f32 = 32 ∨ (Rect.block (s := S100000x32) S10000x32.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x48_S10000x48_1_0_0_1_n_n : DotDims S10000x64 S64x48 S10000x48 where
  lhsContracting := [1]
  rhsContracting := [0]
  lhsNonContracting := [0]
  rhsNonContracting := [1]
  lhsBatch := []
  rhsBatch := []
  wf := dot_S10000x64_S64x48_S10000x48_1_0_0_1_n_n_wf
def gather_S100000x48_S1700000x1_S1700000x48_1_0_n_n_0_1_148 : GatherDims S100000x48 S1700000x1 S1700000x48 where
  offsetDims := [1]
  collapsedSliceDims := [0]
  operandBatchingDims := []
  startIndicesBatchingDims := []
  startIndexMap := [0]
  indexVectorDim := 1
  sliceSizes := ![1, 48]
  wf := gather_S100000x48_S1700000x1_S1700000x48_1_0_n_n_0_1_148_wf
def scatter_S100000x48_S1700000x1_S1700000x48_1_0_0_1 : ScatterDims S100000x48 S1700000x1 S1700000x48 where
  updateWindowDims := [1]
  insertedWindowDims := [0]
  scatterDimsToOperandDims := [0]
  indexVectorDim := 1
  wf := scatter_S100000x48_S1700000x1_S1700000x48_1_0_0_1_wf
def dot_S10000x48_S48x32_S10000x32_1_0_0_1_n_n : DotDims S10000x48 S48x32 S10000x32 where
  lhsContracting := [1]
  rhsContracting := [0]
  lhsNonContracting := [0]
  rhsNonContracting := [1]
  lhsBatch := []
  rhsBatch := []
  wf := dot_S10000x48_S48x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x48.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x48.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x48.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x48.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S48x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S10000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x48 : Shape := ⟨2, ![64, 48]⟩
abbrev S48 : Shape := ⟨1, ![48]⟩
abbrev S48x32 : Shape := ⟨2, ![48, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x48 : Shape := ⟨2, ![100000, 48]⟩
abbrev S1700000x48 : Shape := ⟨2, ![1700000, 48]⟩
abbrev S1x48 : Shape := ⟨2, ![1, 48]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 111
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x48, .f32⟩
  | .hbm, ⟨3, _⟩ => ⟨S48, .f32⟩
  | .hbm, ⟨4, _⟩ => ⟨S48x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x48, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x48, .f32⟩
  | .hbm, ⟨59, _⟩ => ⟨S1700000x1, .f32⟩
  | .hbm, ⟨60, _⟩ => ⟨S1700000x48, .f32⟩
  | .hbm, ⟨61, _⟩ => ⟨S1700000x48, .f32⟩
  | .hbm, ⟨62, _⟩ => ⟨S_, .f32⟩
  | .hbm, ⟨63, _⟩ => ⟨S100000x48, .f32⟩
  | .hbm, ⟨64, _⟩ => ⟨S1700000x1, .i32⟩
  | .hbm, ⟨65, _⟩ => ⟨S100000x48, .f32⟩
  | .hbm, ⟨66, _⟩ => ⟨S1x48, .f32⟩
  | .hbm, ⟨67, _⟩ => ⟨S100000x48, .f32⟩
  | .hbm, ⟨68, _⟩ => ⟨S100000x48, .f32⟩
  | .hbm, ⟨69, _⟩ => ⟨S_, .f32⟩
  | .hbm, ⟨70, _⟩ => ⟨S100000x48, .f32⟩
  | .hbm, ⟨71, _⟩ => ⟨S100000x48, .f32⟩
  | .hbm, ⟨72, _⟩ => ⟨S100000x32, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000, .f32⟩
  | .hbm, ⟨82, _⟩ => ⟨S_, .i32⟩
  | .hbm, ⟨83, _⟩ => ⟨S1700000, .i32⟩
  | .hbm, ⟨84, _⟩ => ⟨S1700000, .i1⟩
  | .hbm, ⟨85, _⟩ => ⟨S_, .i32⟩
  | .hbm, ⟨86, _⟩ => ⟨S1700000, .i32⟩
  | .hbm, ⟨87, _⟩ => ⟨S1700000, .i32⟩
  | .hbm, ⟨88, _⟩ => ⟨S1700000, .i32⟩
  | .hbm, ⟨89, _⟩ => ⟨S1700000x1, .i32⟩
  | .hbm, ⟨90, _⟩ => ⟨S1700000, .f32⟩
  | .hbm, ⟨91, _⟩ => ⟨S1700000, .f32⟩
  | .hbm, ⟨92, _⟩ => ⟨S_, .i32⟩
  | .hbm, ⟨93, _⟩ => ⟨S1700000, .i32⟩
  | .hbm, ⟨94, _⟩ => ⟨S1700000, .i1⟩
  | .hbm, ⟨95, _⟩ => ⟨S_, .i32⟩
  | .hbm, ⟨96, _⟩ => ⟨S1700000, .i32⟩
  | .hbm, ⟨97, _⟩ => ⟨S1700000, .i32⟩
  | .hbm, ⟨98, _⟩ => ⟨S1700000, .i32⟩
  | .hbm, ⟨99, _⟩ => ⟨S1700000x1, .i32⟩
  | .hbm, ⟨100, _⟩ => ⟨S1700000x32, .f32⟩
  | .hbm, ⟨101, _⟩ => ⟨S1700000x1, .f32⟩
  | .hbm, ⟨102, _⟩ => ⟨S1700000x32, .f32⟩
  | .hbm, ⟨103, _⟩ => ⟨S1700000x32, .f32⟩
  | .hbm, ⟨104, _⟩ => ⟨S_, .f32⟩
  | .hbm, ⟨105, _⟩ => ⟨S100000x32, .f32⟩
  | .hbm, ⟨106, _⟩ => ⟨S1700000x1, .i32⟩
  | .hbm, ⟨107, _⟩ => ⟨S100000x32, .f32⟩
  | .hbm, ⟨108, _⟩ => ⟨S1x32, .f32⟩
  | .hbm, ⟨109, _⟩ => ⟨S100000x32, .f32⟩
  | .hbm, ⟨110, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_c_15 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_16 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x48_0_1 : S1700000x1.BroadcastsInDim S1700000x48 (![0, 1] : Fin 2 → Fin S1700000x48.rank)
  bcast_S_S100000x48 : S_.BroadcastsInDim S100000x48 (![] : Fin 0 → Fin S100000x48.rank)
  bcast_S48_S1x48_1 : S48.BroadcastsInDim S1x48 (![1] : Fin 1 → Fin S1x48.rank)
  bcast_S1x48_S100000x48_0_1 : S1x48.BroadcastsInDim S100000x48 (![0, 1] : Fin 2 → Fin S100000x48.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  dot_S100000x64_S64x48_S100000x48_1_0_0_1_n_n_wf : DotDims.WF S100000x64 S64x48 S100000x48 [1] [0] [0] [1] [] []
  gather_S100000_S1700000x1_S1700000_n_0_n_n_0_1_1_wf : GatherDims.WF S100000 S1700000x1 S1700000 [] [0] [] [0] [] 1 ![1]
  gather_S100000x48_S1700000x1_S1700000x48_1_0_n_n_0_1_148_wf : GatherDims.WF S100000x48 S1700000x1 S1700000x48 [1] [0] [] [0] [] 1 ![1, 48]
  scatter_S100000x48_S1700000x1_S1700000x48_1_0_0_1_wf : ScatterDims.WF S100000x48 S1700000x1 S1700000x48 [1] [0] [0] 1
  dot_S100000x48_S48x32_S100000x32_1_0_0_1_n_n_wf : DotDims.WF S100000x48 S48x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x64_S64x48_S100000x48_1_0_0_1_n_n : DotDims S100000x64 S64x48 S100000x48 where
  lhsContracting := [1]
  rhsContracting := [0]
  lhsNonContracting := [0]
  rhsNonContracting := [1]
  lhsBatch := []
  rhsBatch := []
  wf := dot_S100000x64_S64x48_S100000x48_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x48_S1700000x1_S1700000x48_1_0_n_n_0_1_148 : GatherDims S100000x48 S1700000x1 S1700000x48 where
  offsetDims := [1]
  collapsedSliceDims := [0]
  operandBatchingDims := []
  startIndicesBatchingDims := []
  startIndexMap := [0]
  indexVectorDim := 1
  sliceSizes := ![1, 48]
  wf := gather_S100000x48_S1700000x1_S1700000x48_1_0_n_n_0_1_148_wf
def scatter_S100000x48_S1700000x1_S1700000x48_1_0_0_1 : ScatterDims S100000x48 S1700000x1 S1700000x48 where
  updateWindowDims := [1]
  insertedWindowDims := [0]
  scatterDimsToOperandDims := [0]
  indexVectorDim := 1
  wf := scatter_S100000x48_S1700000x1_S1700000x48_1_0_0_1_wf
def dot_S100000x48_S48x32_S100000x32_1_0_0_1_n_n : DotDims S100000x48 S48x32 S100000x32 where
  lhsContracting := [1]
  rhsContracting := [0]
  lhsNonContracting := [0]
  rhsNonContracting := [1]
  lhsBatch := []
  rhsBatch := []
  wf := dot_S100000x48_S48x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.Dense.lean ====
/-
  Dense layers on the extended reals, as whole-array functions.

  `rowsTimes x w` is the matrix product: entry (p, q) is the sum over k of x(p, k) · w(k, q).
  `shiftClamp h β` adds the one row β to every row of h and clamps below at zero (the bias and the
  rectifier between the two layers): entry (p, k) is max (h(p, k) + β(0, k)) 0, the zero written as
  the f32 word both programs use, so it is never evaluated.

  Then the two kernel bodies' stored values, read at an index (p, q) of their block: the first is the
  product of its two loaded blocks; the second the product of the shifted and clamped first block
  with the third. A change of float format is the identity on the extended reals, and a
  `tpu.matmul` into the zero accumulator is the plain sum of products over the contracted axis.
-/
import proofs.«161945_j66262755442783_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx
open scoped BigOperators

namespace Cert.Dense

/-- The matrix product of an [a, b] array with a [b, c] array, entry by entry. -/
def rowsTimes {a b c : ℕ} (x : (⟨2, ![a, b]⟩ : Shape).Idx → EReal) (w : (⟨2, ![b, c]⟩ : Shape).Idx → EReal) :
    (⟨2, ![a, c]⟩ : Shape).Idx → EReal :=
  fun i => ∑ k : Fin b, x (ix2 (n0 := a) (n1 := b) (i 0) k) * w (ix2 (n0 := b) (n1 := c) k (i 1))

theorem rowsTimes_apply {a b c : ℕ} (x : (⟨2, ![a, b]⟩ : Shape).Idx → EReal) (w : (⟨2, ![b, c]⟩ : Shape).Idx → EReal)
    (p : Fin a) (q : Fin c) : rowsTimes x w (ix2 p q) = ∑ k : Fin b, x (ix2 p k) * w (ix2 k q) := rfl

/-- Every row of `h` shifted by the one row `β`, then clamped below at zero. -/
def shiftClamp {a b : ℕ} (h : (⟨2, ![a, b]⟩ : Shape).Idx → EReal) (β : (⟨2, ![1, b]⟩ : Shape).Idx → EReal) :
    (⟨2, ![a, b]⟩ : Shape).Idx → EReal :=
  fun i => max (h i + β (ix2 (n0 := 1) (n1 := b) (0 : Fin 1) (i 1))) (Ideal.ofBits .f32 0x00000000#32)

theorem shiftClamp_apply {a b : ℕ} (h : (⟨2, ![a, b]⟩ : Shape).Idx → EReal) (β : (⟨2, ![1, b]⟩ : Shape).Idx → EReal)
    (p : Fin a) (k : Fin b) :
    shiftClamp h β (ix2 p k) = max (h (ix2 p k) + β (ix2 (0 : Fin 1) k)) (Ideal.ofBits .f32 0x00000000#32) := rfl

end Cert.Dense

namespace Cert.KernelIdeal.Bodies

open Cert.KernelIdeal Cert.KernelIdeal.Gen

/-! ## The first layer's contraction: which operand entries an output entry reads -/

theorem lhs_first_0 (i : S10000x48.Idx) (q : dot_S10000x64_S64x48_S10000x48_1_0_0_1_n_n.contr.Idx) :
    (dot_S10000x64_S64x48_S10000x48_1_0_0_1_n_n.lhsIdx i q 0).val = (i 0).val := by
  unfold DotDims.lhsIdx
  rw [dif_neg (show ¬(0 : Fin S10000x64.rank) ∈ dot_S10000x64_S64x48_S10000x48_1_0_0_1_n_n.lhsBatch by decide), dif_pos (show (0 : Fin S10000x64.rank) ∈ dot_S10000x64_S64x48_S10000x48_1_0_0_1_n_n.lhsNonContracting by decide)]
  rfl
theorem lhs_first_1 (i : S10000x48.Idx) (q : dot_S10000x64_S64x48_S10000x48_1_0_0_1_n_n.contr.Idx) :
    (dot_S10000x64_S64x48_S10000x48_1_0_0_1_n_n.lhsIdx i q 1).val = (q ⟨0, by decide⟩).val :=
  dot_S10000x64_S64x48_S10000x48_1_0_0_1_n_n.lhsIdx_val_of_single rfl i q
theorem rhs_first_0 (i : S10000x48.Idx) (q : dot_S10000x64_S64x48_S10000x48_1_0_0_1_n_n.contr.Idx) :
    (dot_S10000x64_S64x48_S10000x48_1_0_0_1_n_n.rhsIdx i q 0).val = (q ⟨0, by decide⟩).val :=
  dot_S10000x64_S64x48_S10000x48_1_0_0_1_n_n.rhsIdx_val_of_single rfl i q
theorem rhs_first_1 (i : S10000x48.Idx) (q : dot_S10000x64_S64x48_S10000x48_1_0_0_1_n_n.contr.Idx) :
    (dot_S10000x64_S64x48_S10000x48_1_0_0_1_n_n.rhsIdx i q 1).val = (i 1).val := by
  unfold DotDims.rhsIdx
  rw [dif_neg (show ¬(1 : Fin S64x48.rank) ∈ dot_S10000x64_S64x48_S10000x48_1_0_0_1_n_n.rhsBatch by decide), dif_pos (show (1 : Fin S64x48.rank) ∈ dot_S10000x64_S64x48_S10000x48_1_0_0_1_n_n.rhsNonContracting by decide)]
  rfl

/-- The first body's stored block is the product of its two loaded blocks. -/
theorem first_body (x : Vec Ideal S10000x64 .f32) (w : Vec Ideal S64x48 .f32) :
    k0_pay1 (F := Ideal) x w = Cert.Dense.rowsTimes x w := by
  funext j
  obtain ⟨p, q, rfl⟩ : ∃ (p : Fin 10000) (q : Fin 48), j = ix2 p q := ⟨j 0, j 1, eq_ix2 j⟩
  rw [Cert.Dense.rowsTimes_apply]
  unfold k0_pay1
  refine (Ideal.matmul_constant_zero_apply dot_S10000x64_S64x48_S10000x48_1_0_0_1_n_n none _ _ (ix2 p q)).trans ?_
  rw [← Equiv.sum_comp (contrEquiv1 dot_S10000x64_S64x48_S10000x48_1_0_0_1_n_n 64 rfl rfl).symm]
  refine Finset.sum_congr rfl fun k _ => ?_
  have hk := contrEquiv1_symm_val dot_S10000x64_S64x48_S10000x48_1_0_0_1_n_n 64 rfl rfl k
  have el : dot_S10000x64_S64x48_S10000x48_1_0_0_1_n_n.lhsIdx (ix2 p q) ((contrEquiv1 dot_S10000x64_S64x48_S10000x48_1_0_0_1_n_n 64 rfl rfl).symm k) = ix2 p k := funext fun a => Fin.ext (by
    match a with
    | ⟨0, _⟩ => exact lhs_first_0 _ _
    | ⟨1, _⟩ => exact (lhs_first_1 _ _).trans hk)
  have er : dot_S10000x64_S64x48_S10000x48_1_0_0_1_n_n.rhsIdx (ix2 p q) ((contrEquiv1 dot_S10000x64_S64x48_S10000x48_1_0_0_1_n_n 64 rfl rfl).symm k) = ix2 k q := funext fun a => Fin.ext (by
    match a with
    | ⟨0, _⟩ => exact (rhs_first_0 _ _).trans hk
    | ⟨1, _⟩ => exact rhs_first_1 _ _)
  rw [truncf_apply, truncf_apply, el, er]

/-! ## The second layer's contraction -/

theorem lhs_second_0 (i : S10000x32.Idx) (q : dot_S10000x48_S48x32_S10000x32_1_0_0_1_n_n.contr.Idx) :
    (dot_S10000x48_S48x32_S10000x32_1_0_0_1_n_n.lhsIdx i q 0).val = (i 0).val := by
  unfold DotDims.lhsIdx
  rw [dif_neg (show ¬(0 : Fin S10000x48.rank) ∈ dot_S10000x48_S48x32_S10000x32_1_0_0_1_n_n.lhsBatch by decide), dif_pos (show (0 : Fin S10000x48.rank) ∈ dot_S10000x48_S48x32_S10000x32_1_0_0_1_n_n.lhsNonContracting by decide)]
  rfl
theorem lhs_second_1 (i : S10000x32.Idx) (q : dot_S10000x48_S48x32_S10000x32_1_0_0_1_n_n.contr.Idx) :
    (dot_S10000x48_S48x32_S10000x32_1_0_0_1_n_n.lhsIdx i q 1).val = (q ⟨0, by decide⟩).val :=
  dot_S10000x48_S48x32_S10000x32_1_0_0_1_n_n.lhsIdx_val_of_single rfl i q
theorem rhs_second_0 (i : S10000x32.Idx) (q : dot_S10000x48_S48x32_S10000x32_1_0_0_1_n_n.contr.Idx) :
    (dot_S10000x48_S48x32_S10000x32_1_0_0_1_n_n.rhsIdx i q 0).val = (q ⟨0, by decide⟩).val :=
  dot_S10000x48_S48x32_S10000x32_1_0_0_1_n_n.rhsIdx_val_of_single rfl i q
theorem rhs_second_1 (i : S10000x32.Idx) (q : dot_S10000x48_S48x32_S10000x32_1_0_0_1_n_n.contr.Idx) :
    (dot_S10000x48_S48x32_S10000x32_1_0_0_1_n_n.rhsIdx i q 1).val = (i 1).val := by
  unfold DotDims.rhsIdx
  rw [dif_neg (show ¬(1 : Fin S48x32.rank) ∈ dot_S10000x48_S48x32_S10000x32_1_0_0_1_n_n.rhsBatch by decide), dif_pos (show (1 : Fin S48x32.rank) ∈ dot_S10000x48_S48x32_S10000x32_1_0_0_1_n_n.rhsNonContracting by decide)]
  rfl

/-- The second body's stored block: its first loaded block shifted by the one-row second block and
    clamped at zero, times its third loaded block. -/
theorem second_body (h : Vec Ideal S10000x48 .f32) (β : Vec Ideal S1x48 .f32) (w : Vec Ideal S48x32 .f32) :
    k1_pay1 (F := Ideal) h β w = Cert.Dense.rowsTimes (Cert.Dense.shiftClamp h β) w := by
  funext j
  obtain ⟨p, q, rfl⟩ : ∃ (p : Fin 10000) (q : Fin 32), j = ix2 p q := ⟨j 0, j 1, eq_ix2 j⟩
  rw [Cert.Dense.rowsTimes_apply]
  unfold k1_pay1
  refine (Ideal.matmul_constant_zero_apply dot_S10000x48_S48x32_S10000x32_1_0_0_1_n_n none _ _ (ix2 p q)).trans ?_
  rw [← Equiv.sum_comp (contrEquiv1 dot_S10000x48_S48x32_S10000x32_1_0_0_1_n_n 48 rfl rfl).symm]
  refine Finset.sum_congr rfl fun k _ => ?_
  have hk := contrEquiv1_symm_val dot_S10000x48_S48x32_S10000x32_1_0_0_1_n_n 48 rfl rfl k
  have el : dot_S10000x48_S48x32_S10000x32_1_0_0_1_n_n.lhsIdx (ix2 p q) ((contrEquiv1 dot_S10000x48_S48x32_S10000x32_1_0_0_1_n_n 48 rfl rfl).symm k) = ix2 p k := funext fun a => Fin.ext (by
    match a with
    | ⟨0, _⟩ => exact lhs_second_0 _ _
    | ⟨1, _⟩ => exact (lhs_second_1 _ _).trans hk)
  have er : dot_S10000x48_S48x32_S10000x32_1_0_0_1_n_n.rhsIdx (ix2 p q) ((contrEquiv1 dot_S10000x48_S48x32_S10000x32_1_0_0_1_n_n 48 rfl rfl).symm k) = ix2 k q := funext fun a => Fin.ext (by
    match a with
    | ⟨0, _⟩ => exact (rhs_second_0 _ _).trans hk
    | ⟨1, _⟩ => exact rhs_second_1 _ _)
  rw [truncf_apply, truncf_apply, el, er, Cert.Dense.shiftClamp_apply, maximumf_apply, addf_apply,
    shapeCast_self, shapeCast_self, broadcastTo_1b_ab_apply, broadcast_apply]
  rfl

end Cert.KernelIdeal.Bodies

end
-- ==== Proof.Layers.lean ====
/-
  The two pallas_calls as whole-array functions of the arrays they find at entry.

  Each grid has ten points. In the first call point t stages rows 10000·t … 10000·t + 9999 of the input
  array (all 64 columns) and the whole 64 × 48 weight array, and writes back the same rows of the
  output; the body's stored block is the matrix product of the two staged blocks. A row of a product
  depends only on the same row of the left factor, so every written block is that block of the product
  of the WHOLE arrays; the ten blocks tile the 100000 rows, so the region leaves in its output array
  the product of its input array with the weights.

  The second call is the same with one more staged array, the one-row bias: its body shifts the staged
  rows by that row, clamps at zero and multiplies by the whole 48 × 32 weight array. Shifting and
  clamping are entry by entry, so again each written block is a block of one whole-array function.
-/
import proofs.«161945_j66262755442783_1_alg».proof.Proof.Gen.KernelIdeal.Frame
import proofs.«161945_j66262755442783_1_alg».proof.Proof.Dense

set_option maxRecDepth 16384

noncomputable section

namespace Cert.KernelIdeal.Layers

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-! ## The first call -/

variable (V : (c : Dev nD) → (b : Ref sig .tc) → Buf (Elt Ideal) ((c : Thread nD τ).loc b))

theorem origin2 : (![0, 0] : Fin 2 → Nat) = fun _ => 0 := funext fun a => by fin_cases a <;> rfl

/-- The three index maps over the grid: the input and the output move together along the rows, the
    weights stay put. -/
theorem maps_first : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is block `t` of the product of the whole arrays. -/
theorem flushed_first (c : Dev nD) (t : Fin cfg0.N) :
    (dat0 V c).flushed 2 t = ((cfg0.win 2).blk t).view.read (Elt Ideal)
      (Cert.Dense.rowsTimes (a := 100000) (b := 64) (c := 48) (V c main_arg0) (V c main_arg2)) := by
  show (cfg0.win 2).cut (grid0.coords t) ((dat0 V c).after 2 t) = _
  rw [after0_2]
  unfold out0_2
  rw [View.canon_unit_zero origin2]
  simp only [View.ld_unit_zero (S := S10000x64) origin2, View.ld_unit_zero (S := S64x48) origin2]
  rw [Cert.KernelIdeal.Bodies.first_body]
  obtain ⟨e0, e1, e2, e3, e4, e5⟩ := maps_first t
  funext j
  show Cert.Dense.rowsTimes (a := 10000) (b := 64) (c := 48) (iblk0 V c 0 t) (iblk0 V c 1 t) j
    = Cert.Dense.rowsTimes (a := 100000) (b := 64) (c := 48) (V c main_arg0) (V c main_arg2) (((cfg0.win 2).blk t).view.emb j)
  unfold Cert.Dense.rowsTimes
  refine Finset.sum_congr rfl fun k _ => ?_
  have hx : iblk0 V c 0 t (ix2 (n0 := 10000) (n1 := 64) (j 0) k)
      = V c main_arg0 (ix2 (n0 := 100000) (n1 := 64) ((((cfg0.win 2).blk t).view.emb j) 0) k) := by
    show V c main_arg0 (((cfg0.win 0).blk t).view.emb (ix2 (n0 := 10000) (n1 := 64) (j 0) k)) = _
    refine congrArg (V c main_arg0) (funext fun a => Fin.ext ?_)
    match a with
    | ⟨0, _⟩ =>
      show win0_0.index t (0 : Fin 2) * 10000 + 1 * (j 0).val = win0_2.index t (0 : Fin 2) * 10000 + 1 * (j 0).val
      omega
    | ⟨1, _⟩ =>
      show win0_0.index t (1 : Fin 2) * 64 + 1 * k.val = k.val
      omega
  have hw : iblk0 V c 1 t (ix2 (n0 := 64) (n1 := 48) k (j 1))
      = V c main_arg2 (ix2 (n0 := 64) (n1 := 48) k ((((cfg0.win 2).blk t).view.emb j) 1)) := by
    show V c main_arg2 (((cfg0.win 1).blk t).view.emb (ix2 (n0 := 64) (n1 := 48) k (j 1))) = _
    refine congrArg (V c main_arg2) (funext fun a => Fin.ext ?_)
    match a with
    | ⟨0, _⟩ =>
      show win0_1.index t (0 : Fin 2) * 64 + 1 * k.val = k.val
      omega
    | ⟨1, _⟩ =>
      show win0_1.index t (1 : Fin 2) * 48 + 1 * (j 1).val = win0_2.index t (1 : Fin 2) * 48 + 1 * (j 1).val
      omega
  exact congrArg₂ (· * ·) hx hw

/-- An index of the output array lies in point `t`'s block iff each coordinate lies in the block's range. -/
theorem mem_first (t : Fin cfg0.N) (i : S100000x48.Idx) :
    i ∈ ((cfg0.win 2).blk t).view.set ↔ ∀ a : Fin 2, win0_2.index t a * S10000x48.size a ≤ (i a).val ∧ (i a).val < win0_2.index t a * S10000x48.size a + S10000x48.size a := by
  show i ∈ ((View.whole main_v32).slice (win0_2.rect t)).set ↔ _
  rw [View.set_slice_whole, Rect.mem_set_unit]
  exact Iff.rfl

/-- Every block of ten thousand rows is some point's. -/
theorem onto_first : ∀ q : Fin 10, ∃ t : Fin cfg0.N, win0_2.index t = ![q.val, 0] :=
  (by decide +kernel : ∀ q : Fin 10, ∃ t : Fin grid0.N, win0_2.index t = ![q.val, 0])

/-- The written blocks cover the output array: row r is in the block of point r / 10000. -/
theorem cover_first (i : S100000x48.Idx) :
    ∃ t : Fin cfg0.N, (cfg0.win 2).flush t = true ∧ i ∈ ((cfg0.win 2).blk t).view.set := by
  have hi0 : (i 0).val < 100000 := (i 0).isLt
  have hi1 : (i 1).val < 48 := (i 1).isLt
  obtain ⟨t, ht⟩ := onto_first ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_first]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 48 ≤ (i 1).val ∧ (i 1).val < win0_2.index t (1 : Fin 2) * 48 + 48
    omega

/-- After the first call its output array is the product of its input array with the weights. -/
theorem array_first (c : Dev nD) :
    (dat0 V c).arrAt 2 cfg0.N = Cert.Dense.rowsTimes (a := 100000) (b := 64) (c := 48) (V c main_arg0) (V c main_arg2) :=
  (dat0 V c).arrAt_eq_of_cover 2 _ (fun t _ => flushed_first V c t) cover_first

/-! ## The second call -/

/-- Its four index maps over the grid: the rows in and the rows out move together, the bias row and the
    weights stay put. -/
theorem maps_second : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0 :=
  (by decide +kernel : ∀ t : Fin grid1.N, _)

/-- What point `t` writes back is block `t` of the whole arrays' shifted, clamped rows times the weights. -/
theorem flushed_second (c : Dev nD) (t : Fin cfg1.N) :
    (dat1 V c).flushed 3 t = ((cfg1.win 3).blk t).view.read (Elt Ideal)
      (Cert.Dense.rowsTimes (a := 100000) (b := 48) (c := 32)
        (Cert.Dense.shiftClamp (a := 100000) (b := 48) (V c main_v45) (V c main_v46)) (V c main_arg4)) := by
  show (cfg1.win 3).cut (grid1.coords t) ((dat1 V c).after 3 t) = _
  rw [after1_3]
  unfold out1_3
  rw [View.canon_unit_zero origin2]
  simp only [View.ld_unit_zero (S := S10000x48) origin2, View.ld_unit_zero (S := S1x48) origin2, View.ld_unit_zero (S := S48x32) origin2]
  rw [Cert.KernelIdeal.Bodies.second_body]
  obtain ⟨e0, e1, e2, e3, e4, e5, e6⟩ := maps_second t
  funext j
  show Cert.Dense.rowsTimes (a := 10000) (b := 48) (c := 32)
      (Cert.Dense.shiftClamp (a := 10000) (b := 48) (iblk1 V c 0 t) (iblk1 V c 1 t)) (iblk1 V c 2 t) j
    = Cert.Dense.rowsTimes (a := 100000) (b := 48) (c := 32)
      (Cert.Dense.shiftClamp (a := 100000) (b := 48) (V c main_v45) (V c main_v46)) (V c main_arg4) (((cfg1.win 3).blk t).view.emb j)
  unfold Cert.Dense.rowsTimes
  refine Finset.sum_congr rfl fun k _ => ?_
  have hx : iblk1 V c 0 t (ix2 (n0 := 10000) (n1 := 48) (j 0) k)
      = V c main_v45 (ix2 (n0 := 100000) (n1 := 48) ((((cfg1.win 3).blk t).view.emb j) 0) k) := by
    show V c main_v45 (((cfg1.win 0).blk t).view.emb (ix2 (n0 := 10000) (n1 := 48) (j 0) k)) = _
    refine congrArg (V c main_v45) (funext fun a => Fin.ext ?_)
    match a with
    | ⟨0, _⟩ =>
      show win1_0.index t (0 : Fin 2) * 10000 + 1 * (j 0).val = win1_3.index t (0 : Fin 2) * 10000 + 1 * (j 0).val
      omega
    | ⟨1, _⟩ =>
      show win1_0.index t (1 : Fin 2) * 48 + 1 * k.val = k.val
      omega
  have hb : iblk1 V c 1 t (ix2 (n0 := 1) (n1 := 48) (0 : Fin 1) k)
      = V c main_v46 (ix2 (n0 := 1) (n1 := 48) (0 : Fin 1) k) := by
    show V c main_v46 (((cfg1.win 1).blk t).view.emb (ix2 (n0 := 1) (n1 := 48) (0 : Fin 1) k)) = _
    refine congrArg (V c main_v46) (funext fun a => Fin.ext ?_)
    match a with
    | ⟨0, _⟩ =>
      show win1_1.index t (0 : Fin 2) * 1 + 1 * 0 = 0
      omega
    | ⟨1, _⟩ =>
      show win1_1.index t (1 : Fin 2) * 48 + 1 * k.val = k.val
      omega
  have hw : iblk1 V c 2 t (ix2 (n0 := 48) (n1 := 32) k (j 1))
      = V c main_arg4 (ix2 (n0 := 48) (n1 := 32) k ((((cfg1.win 3).blk t).view.emb j) 1)) := by
    show V c main_arg4 (((cfg1.win 2).blk t).view.emb (ix2 (n0 := 48) (n1 := 32) k (j 1))) = _
    refine congrArg (V c main_arg4) (funext fun a => Fin.ext ?_)
    match a with
    | ⟨0, _⟩ =>
      show win1_2.index t (0 : Fin 2) * 48 + 1 * k.val = k.val
      omega
    | ⟨1, _⟩ =>
      show win1_2.index t (1 : Fin 2) * 32 + 1 * (j 1).val = win1_3.index t (1 : Fin 2) * 32 + 1 * (j 1).val
      omega
  exact congrArg₂ (· * ·) (congrArg₂ (fun u v : EReal => max (u + v) (Ideal.ofBits .f32 0x00000000#32)) hx hb) hw

theorem mem_second (t : Fin cfg1.N) (i : S100000x32.Idx) :
    i ∈ ((cfg1.win 3).blk t).view.set ↔ ∀ a : Fin 2, win1_3.index t a * S10000x32.size a ≤ (i a).val ∧ (i a).val < win1_3.index t a * S10000x32.size a + S10000x32.size a := by
  show i ∈ ((View.whole main_v47).slice (win1_3.rect t)).set ↔ _
  rw [View.set_slice_whole, Rect.mem_set_unit]
  exact Iff.rfl

theorem onto_second : ∀ q : Fin 10, ∃ t : Fin cfg1.N, win1_3.index t = ![q.val, 0] :=
  (by decide +kernel : ∀ q : Fin 10, ∃ t : Fin grid1.N, win1_3.index t = ![q.val, 0])

theorem cover_second (i : S100000x32.Idx) :
    ∃ t : Fin cfg1.N, (cfg1.win 3).flush t = true ∧ i ∈ ((cfg1.win 3).blk t).view.set := by
  have hi0 : (i 0).val < 100000 := (i 0).isLt
  have hi1 : (i 1).val < 32 := (i 1).isLt
  obtain ⟨t, ht⟩ := onto_second ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_second]
  intro a
  match a with
  | ⟨0, _⟩ =>
    show win1_3.index t (0 : Fin 2) * 10000 ≤ (i 0).val ∧ (i 0).val < win1_3.index t (0 : Fin 2) * 10000 + 10000
    omega
  | ⟨1, _⟩ =>
    show win1_3.index t (1 : Fin 2) * 32 ≤ (i 1).val ∧ (i 1).val < win1_3.index t (1 : Fin 2) * 32 + 32
    omega

/-- After the second call its output array is its input rows shifted by the bias row, clamped at zero,
    times the weights. -/
theorem array_second (c : Dev nD) :
    (dat1 V c).arrAt 3 cfg1.N = Cert.Dense.rowsTimes (a := 100000) (b := 48) (c := 32)
      (Cert.Dense.shiftClamp (a := 100000) (b := 48) (V c main_v45) (V c main_v46)) (V c main_arg4) :=
  (dat1 V c).arrAt_eq_of_cover 3 _ (fun t _ => flushed_second V c t) cover_second

end Cert.KernelIdeal.Layers

end
-- ==== Proof.RefStages.lean ====
/-
  The reference's two `dot_general` stages as the whole-array functions of Proof/Dense.lean.

  On the extended reals a host `dot_general` with one contracted axis is, entry by entry, the sum over k
  of left(p, k) · right(k, q): the matrix product. The second one's left operand is the first layer's
  aggregate plus the bias broadcast over the rows, clamped below at zero; read at (p, k) that is
  max (aggregate(p, k) + bias(k)) 0, the shifted and clamped rows, for any one-row array `β` that holds
  the bias.
-/
import proofs.«161945_j66262755442783_1_alg».proof.Proof.RefRead
import proofs.«161945_j66262755442783_1_alg».proof.Proof.Dense

noncomputable section

namespace Cert.ReferenceIdeal.Stages

open Cert.ReferenceIdeal Cert.ReferenceIdeal.ReadP
open Idealize.ShloMosaic Idealize.ShloMosaic.ValueIdx
open scoped BigOperators

/-- The first layer's `dot_general` is the product of the input array with the first weights. -/
theorem first_product (x0 : (⟨S100000x64, .f32⟩ : BufTy).Contents (Elt Ideal)) (x2 : (⟨S64x48, .f32⟩ : BufTy).Contents (Elt Ideal)) :
    val_main_v17 (F := Ideal) x0 x2 = Cert.Dense.rowsTimes (a := 100000) (b := 64) (c := 48) x0 x2 := by
  funext i
  obtain ⟨p, q, rfl⟩ : ∃ (p : Fin 100000) (q : Fin 48), i = ix2 p q := ⟨i 0, i 1, eq_ix2 i⟩
  rw [val_main_v17_apply, Cert.Dense.rowsTimes_apply]
  refine Finset.sum_congr rfl fun k _ => ?_
  have el : lidx_main_v17 (ix2 p q) k = ix2 p k := funext fun a => Fin.ext (by
    match a with
    | ⟨0, _⟩ => rfl
    | ⟨1, _⟩ => rfl)
  have er : ridx_main_v17 (ix2 p q) k = ix2 k q := funext fun a => Fin.ext (by
    match a with
    | ⟨0, _⟩ => rfl
    | ⟨1, _⟩ => rfl)
  rw [el, er]

/-- The second layer's `dot_general` is the first layer's aggregate, shifted by the bias and clamped at
    zero, times the second weights. -/
theorem second_product (x0 : (⟨S100000x64, .f32⟩ : BufTy).Contents (Elt Ideal)) (x1 : (⟨S2x1600000, .i32⟩ : BufTy).Contents (Elt Ideal))
    (x2 : (⟨S64x48, .f32⟩ : BufTy).Contents (Elt Ideal)) (x3 : (⟨S48, .f32⟩ : BufTy).Contents (Elt Ideal))
    (x4 : (⟨S48x32, .f32⟩ : BufTy).Contents (Elt Ideal))
    (β : (⟨2, ![1, 48]⟩ : Shape).Idx → EReal) (hβ : ∀ k : Fin 48, β (ix2 (0 : Fin 1) k) = x3 (ix1 k)) :
    val_main_v50 (F := Ideal) x0 x1 x2 x3 x4
      = Cert.Dense.rowsTimes (a := 100000) (b := 48) (c := 32)
          (Cert.Dense.shiftClamp (a := 100000) (b := 48) (val_main_v45 (F := Ideal) x0 x1 x2) β) x4 := by
  funext i
  obtain ⟨p, q, rfl⟩ : ∃ (p : Fin 100000) (q : Fin 32), i = ix2 p q := ⟨i 0, i 1, eq_ix2 i⟩
  rw [val_main_v50_apply, Cert.Dense.rowsTimes_apply]
  refine Finset.sum_congr rfl fun k _ => ?_
  have el : lidx_main_v50 (ix2 p q) k = ix2 p k := funext fun a => Fin.ext (by
    match a with
    | ⟨0, _⟩ => rfl
    | ⟨1, _⟩ => rfl)
  have er : ridx_main_v50 (ix2 p q) k = ix2 k q := funext fun a => Fin.ext (by
    match a with
    | ⟨0, _⟩ => rfl
    | ⟨1, _⟩ => rfl)
  have eb : idx_main_v46 (idx_main_v47 (ix2 (n0 := 100000) (n1 := 48) p k)) = ix1 k := funext fun a => Fin.ext (by
    match a with
    | ⟨0, _⟩ => rfl)
  rw [el, er, Cert.Dense.shiftClamp_apply, val_main_v49_apply, val_main_v48_apply, val_main_v47_apply, val_main_v46_apply,
    val_main_call1_v0_apply, val_main_call1_cst_apply, eb, hβ]
  rfl

end Cert.ReferenceIdeal.Stages

end
-- ==== Proof.Fold.lean ====
/-
  The kernel program's result as a function of its six argument arrays, in the reference's own stages.

  @main is seven segments: three stretches of host operations (the edge lists with self-loops, the
  degrees and their inverse square roots, the per-edge normalisation), the first pallas_call, a stretch
  (gather the product's rows by source, scale by the normalisation, scatter-add by destination; the bias
  as one row), the second pallas_call, and a last stretch (gather, scale, scatter-add, add the second
  bias). The contents at each boundary are a fold from the launch memory. Walking that fold boundary by
  boundary, every buffer a later segment reads is identified with the stage of the reference that
  computes the same thing from the same arguments: the host stretches apply literally the reference's
  operations, the first region leaves the product the reference's first `dot_general` computes, and the
  second region leaves the reference's second `dot_general` of the shifted and clamped aggregate (the
  reference adds the bias and clamps on the host; the kernel does it inside its second body). The
  normalisation the reference computes a second time for the second layer is the same function of the
  edge list as the first.
-/
import proofs.«161945_j66262755442783_1_alg».proof.Proof.Gen.KernelIdeal.Frame
import proofs.«161945_j66262755442783_1_alg».proof.Proof.Layers
import proofs.«161945_j66262755442783_1_alg».proof.Proof.RefStages
import Idealize.ShloMosaic.Lib.ValueLayout

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Cert.ReferenceIdeal.ReadP

/-! The host stretches are read at ANY float family: their operations are the same symbols on both sides,
    and nothing about the extended reals is used until a region's array is named. -/

section AnyFamily

variable {F : FTy → Type} [FloatOps F]
variable (m : (ℓ : Loc nD τ sig) → Buf (Elt F) ℓ) (ρ : Dev nD → PrngReg)

/-! ## After the first host stretch: edge lists, degree mask, inverse square roots -/

theorem src_1 (c : Dev nD) : W1 m ρ c (Proc.devRef .tc main_v3) = val_main_v3 (F := F) (m ((c.tc : Thread nD τ).loc main_arg1)) := by
  show StableHlo.after hostOps0 (W0 m ρ c) (Proc.devRef .tc main_v3) = _
  after_results <;> rfl
theorem dst_1 (c : Dev nD) : W1 m ρ c (Proc.devRef .tc main_v6) = val_main_v6 (F := F) (m ((c.tc : Thread nD τ).loc main_arg1)) := by
  show StableHlo.after hostOps0 (W0 m ρ c) (Proc.devRef .tc main_v6) = _
  after_results <;> rfl
theorem pos_1 (c : Dev nD) : W1 m ρ c (Proc.devRef .tc main_v12) = val_main_v12 (F := F) (m ((c.tc : Thread nD τ).loc main_arg1)) := by
  show StableHlo.after hostOps0 (W0 m ρ c) (Proc.devRef .tc main_v12) = _
  after_results <;> rfl
theorem rsq_1 (c : Dev nD) : W1 m ρ c (Proc.devRef .tc main_v15) = val_main_v15 (F := F) (m ((c.tc : Thread nD τ).loc main_arg1)) := by
  show StableHlo.after hostOps0 (W0 m ρ c) (Proc.devRef .tc main_v15) = _
  after_results <;> rfl
theorem zero_1 (c : Dev nD) : W1 m ρ c (Proc.devRef .tc main_cst_3) = val_main_cst_3 (F := F) := by
  show StableHlo.after hostOps0 (W0 m ρ c) (Proc.devRef .tc main_cst_3) = _
  after_results <;> rfl
theorem arg0_1 (c : Dev nD) : W1 m ρ c (Proc.devRef .tc main_arg0) = m ((c.tc : Thread nD τ).loc main_arg0) := by
  show StableHlo.after hostOps0 (W0 m ρ c) (Proc.devRef .tc main_arg0) = _
  after_results <;> rfl
theorem arg2_1 (c : Dev nD) : W1 m ρ c (Proc.devRef .tc main_arg2) = m ((c.tc : Thread nD τ).loc main_arg2) := by
  show StableHlo.after hostOps0 (W0 m ρ c) (Proc.devRef .tc main_arg2) = _
  after_results <;> rfl
theorem arg3_1 (c : Dev nD) : W1 m ρ c (Proc.devRef .tc main_arg3) = m ((c.tc : Thread nD τ).loc main_arg3) := by
  show StableHlo.after hostOps0 (W0 m ρ c) (Proc.devRef .tc main_arg3) = _
  after_results <;> rfl
theorem arg4_1 (c : Dev nD) : W1 m ρ c (Proc.devRef .tc main_arg4) = m ((c.tc : Thread nD τ).loc main_arg4) := by
  show StableHlo.after hostOps0 (W0 m ρ c) (Proc.devRef .tc main_arg4) = _
  after_results <;> rfl
theorem arg5_1 (c : Dev nD) : W1 m ρ c (Proc.devRef .tc main_arg5) = m ((c.tc : Thread nD τ).loc main_arg5) := by
  show StableHlo.after hostOps0 (W0 m ρ c) (Proc.devRef .tc main_arg5) = _
  after_results <;> rfl

/-! ## After the select: the inverse square root of the degree, zero where the degree is not positive -/

theorem dis_2 (c : Dev nD) : W2 m ρ c (Proc.devRef .tc main_v16) = val_main_v16 (F := F) (m ((c.tc : Thread nD τ).loc main_arg1)) := by
  have h1 := pos_1 m ρ c
  have h2 := rsq_1 m ρ c
  have h3 := zero_1 m ρ c
  show StableHlo.after hostOps0_1 (W1 m ρ c) (Proc.devRef .tc main_v16) = _
  generalize W1 m ρ c = U at h1 h2 h3 ⊢
  after_results
  rw [h1, h2, h3]
  rfl
theorem src_2 (c : Dev nD) : W2 m ρ c (Proc.devRef .tc main_v3) = val_main_v3 (F := F) (m ((c.tc : Thread nD τ).loc main_arg1)) := by
  have h := src_1 m ρ c
  show StableHlo.after hostOps0_1 (W1 m ρ c) (Proc.devRef .tc main_v3) = _
  generalize W1 m ρ c = U at h ⊢
  after_results <;> exact h
theorem dst_2 (c : Dev nD) : W2 m ρ c (Proc.devRef .tc main_v6) = val_main_v6 (F := F) (m ((c.tc : Thread nD τ).loc main_arg1)) := by
  have h := dst_1 m ρ c
  show StableHlo.after hostOps0_1 (W1 m ρ c) (Proc.devRef .tc main_v6) = _
  generalize W1 m ρ c = U at h ⊢
  after_results <;> exact h
theorem arg0_2 (c : Dev nD) : W2 m ρ c (Proc.devRef .tc main_arg0) = m ((c.tc : Thread nD τ).loc main_arg0) := by
  have h := arg0_1 m ρ c
  show StableHlo.after hostOps0_1 (W1 m ρ c) (Proc.devRef .tc main_arg0) = _
  generalize W1 m ρ c = U at h ⊢
  after_results <;> exact h
theorem arg2_2 (c : Dev nD) : W2 m ρ c (Proc.devRef .tc main_arg2) = m ((c.tc : Thread nD τ).loc main_arg2) := by
  have h := arg2_1 m ρ c
  show StableHlo.after hostOps0_1 (W1 m ρ c) (Proc.devRef .tc main_arg2) = _
  generalize W1 m ρ c = U at h ⊢
  after_results <;> exact h
theorem arg3_2 (c : Dev nD) : W2 m ρ c (Proc.devRef .tc main_arg3) = m ((c.tc : Thread nD τ).loc main_arg3) := by
  have h := arg3_1 m ρ c
  show StableHlo.after hostOps0_1 (W1 m ρ c) (Proc.devRef .tc main_arg3) = _
  generalize W1 m ρ c = U at h ⊢
  after_results <;> exact h
theorem arg4_2 (c : Dev nD) : W2 m ρ c (Proc.devRef .tc main_arg4) = m ((c.tc : Thread nD τ).loc main_arg4) := by
  have h := arg4_1 m ρ c
  show StableHlo.after hostOps0_1 (W1 m ρ c) (Proc.devRef .tc main_arg4) = _
  generalize W1 m ρ c = U at h ⊢
  after_results <;> exact h
theorem arg5_2 (c : Dev nD) : W2 m ρ c (Proc.devRef .tc main_arg5) = m ((c.tc : Thread nD τ).loc main_arg5) := by
  have h := arg5_1 m ρ c
  show StableHlo.after hostOps0_1 (W1 m ρ c) (Proc.devRef .tc main_arg5) = _
  generalize W1 m ρ c = U at h ⊢
  after_results <;> exact h

/-! ## At the first region's entry: the per-edge normalisation -/

theorem nrm_3 (c : Dev nD) : W3 m ρ c (Proc.devRef .tc main_v31) = val_main_v32 (F := F) (m ((c.tc : Thread nD τ).loc main_arg1)) := by
  have h1 := dis_2 m ρ c
  have h2 := src_2 m ρ c
  have h3 := dst_2 m ρ c
  show StableHlo.after hostOps0_2 (W2 m ρ c) (Proc.devRef .tc main_v31) = _
  generalize W2 m ρ c = U at h1 h2 h3 ⊢
  after_results_simp
  rw [h1, h2, h3]
  rfl
theorem src_3 (c : Dev nD) : W3 m ρ c (Proc.devRef .tc main_v3) = val_main_v3 (F := F) (m ((c.tc : Thread nD τ).loc main_arg1)) := by
  have h := src_2 m ρ c
  show StableHlo.after hostOps0_2 (W2 m ρ c) (Proc.devRef .tc main_v3) = _
  generalize W2 m ρ c = U at h ⊢
  after_results <;> exact h
theorem dst_3 (c : Dev nD) : W3 m ρ c (Proc.devRef .tc main_v6) = val_main_v6 (F := F) (m ((c.tc : Thread nD τ).loc main_arg1)) := by
  have h := dst_2 m ρ c
  show StableHlo.after hostOps0_2 (W2 m ρ c) (Proc.devRef .tc main_v6) = _
  generalize W2 m ρ c = U at h ⊢
  after_results <;> exact h
theorem arg0_3 (c : Dev nD) : W3 m ρ c (Proc.devRef .tc main_arg0) = m ((c.tc : Thread nD τ).loc main_arg0) := by
  have h := arg0_2 m ρ c
  show StableHlo.after hostOps0_2 (W2 m ρ c) (Proc.devRef .tc main_arg0) = _
  generalize W2 m ρ c = U at h ⊢
  after_results <;> exact h
theorem arg2_3 (c : Dev nD) : W3 m ρ c (Proc.devRef .tc main_arg2) = m ((c.tc : Thread nD τ).loc main_arg2) := by
  have h := arg2_2 m ρ c
  show StableHlo.after hostOps0_2 (W2 m ρ c) (Proc.devRef .tc main_arg2) = _
  generalize W2 m ρ c = U at h ⊢
  after_results <;> exact h
theorem arg3_3 (c : Dev nD) : W3 m ρ c (Proc.devRef .tc main_arg3) = m ((c.tc : Thread nD τ).loc main_arg3) := by
  have h := arg3_2 m ρ c
  show StableHlo.after hostOps0_2 (W2 m ρ c) (Proc.devRef .tc main_arg3) = _
  generalize W2 m ρ c = U at h ⊢
  after_results <;> exact h
theorem arg4_3 (c : Dev nD) : W3 m ρ c (Proc.devRef .tc main_arg4) = m ((c.tc : Thread nD τ).loc main_arg4) := by
  have h := arg4_2 m ρ c
  show StableHlo.after hostOps0_2 (W2 m ρ c) (Proc.devRef .tc main_arg4) = _
  generalize W2 m ρ c = U at h ⊢
  after_results <;> exact h
theorem arg5_3 (c : Dev nD) : W3 m ρ c (Proc.devRef .tc main_arg5) = m ((c.tc : Thread nD τ).loc main_arg5) := by
  have h := arg5_2 m ρ c
  show StableHlo.after hostOps0_2 (W2 m ρ c) (Proc.devRef .tc main_arg5) = _
  generalize W2 m ρ c = U at h ⊢
  after_results <;> exact h

/-! ## At the first region's exit: every buffer that is not one of the region's arrays is as at entry -/

theorem src_4 (c : Dev nD) : W4 m ρ c (Proc.devRef .tc main_v3) = val_main_v3 (F := F) (m ((c.tc : Thread nD τ).loc main_arg1)) :=
  (W4_of_ne m ρ c main_v3 (by decide)).trans (src_3 m ρ c)
theorem dst_4 (c : Dev nD) : W4 m ρ c (Proc.devRef .tc main_v6) = val_main_v6 (F := F) (m ((c.tc : Thread nD τ).loc main_arg1)) :=
  (W4_of_ne m ρ c main_v6 (by decide)).trans (dst_3 m ρ c)
theorem nrm_4 (c : Dev nD) : W4 m ρ c (Proc.devRef .tc main_v31) = val_main_v32 (F := F) (m ((c.tc : Thread nD τ).loc main_arg1)) :=
  (W4_of_ne m ρ c main_v31 (by decide)).trans (nrm_3 m ρ c)
theorem arg3_4 (c : Dev nD) : W4 m ρ c (Proc.devRef .tc main_arg3) = m ((c.tc : Thread nD τ).loc main_arg3) :=
  (W4_of_ne m ρ c main_arg3 (by decide)).trans (arg3_3 m ρ c)
theorem arg4_4 (c : Dev nD) : W4 m ρ c (Proc.devRef .tc main_arg4) = m ((c.tc : Thread nD τ).loc main_arg4) :=
  (W4_of_ne m ρ c main_arg4 (by decide)).trans (arg4_3 m ρ c)
theorem arg5_4 (c : Dev nD) : W4 m ρ c (Proc.devRef .tc main_arg5) = m ((c.tc : Thread nD τ).loc main_arg5) :=
  (W4_of_ne m ρ c main_arg5 (by decide)).trans (arg5_3 m ρ c)

/-! ## At the second region's entry: the first layer's aggregate, and the bias as one row -/

/-- The first layer's aggregate, given that the first region left the first product in its output array. -/
theorem agg_5 (c : Dev nD) (x0 : Vec F S100000x64 .f32) (x2 : Vec F S64x48 .f32)
    (hprod : W4 m ρ c (Proc.devRef .tc main_v32) = val_main_v17 (F := F) x0 x2) :
    W5 m ρ c (Proc.devRef .tc main_v45) = val_main_v45 (F := F) x0 (m ((c.tc : Thread nD τ).loc main_arg1)) x2 := by
  have h2 := src_4 m ρ c
  have h3 := nrm_4 m ρ c
  have h4 := dst_4 m ρ c
  show StableHlo.after hostOps1 (W4 m ρ c) (Proc.devRef .tc main_v45) = _
  generalize W4 m ρ c = U at hprod h2 h3 h4 ⊢
  after_results_simp
  rw [hprod, h2, h3, h4]
  rfl
theorem row_5 (c : Dev nD) : W5 m ρ c (Proc.devRef .tc main_v46)
    = (shapeCast S1x48 (m ((c.tc : Thread nD τ).loc main_arg3)) shapeCasts_S48_S1x48 : Vec F S1x48 .f32) := by
  have h1 := arg3_4 m ρ c
  show StableHlo.after hostOps1 (W4 m ρ c) (Proc.devRef .tc main_v46) = _
  generalize W4 m ρ c = U at h1 ⊢
  after_results
  rw [h1]
  rfl
theorem src_5 (c : Dev nD) : W5 m ρ c (Proc.devRef .tc main_v3) = val_main_v3 (F := F) (m ((c.tc : Thread nD τ).loc main_arg1)) := by
  have h := src_4 m ρ c
  show StableHlo.after hostOps1 (W4 m ρ c) (Proc.devRef .tc main_v3) = _
  generalize W4 m ρ c = U at h ⊢
  after_results <;> exact h
theorem dst_5 (c : Dev nD) : W5 m ρ c (Proc.devRef .tc main_v6) = val_main_v6 (F := F) (m ((c.tc : Thread nD τ).loc main_arg1)) := by
  have h := dst_4 m ρ c
  show StableHlo.after hostOps1 (W4 m ρ c) (Proc.devRef .tc main_v6) = _
  generalize W4 m ρ c = U at h ⊢
  after_results <;> exact h
theorem nrm_5 (c : Dev nD) : W5 m ρ c (Proc.devRef .tc main_v31) = val_main_v32 (F := F) (m ((c.tc : Thread nD τ).loc main_arg1)) := by
  have h := nrm_4 m ρ c
  show StableHlo.after hostOps1 (W4 m ρ c) (Proc.devRef .tc main_v31) = _
  generalize W4 m ρ c = U at h ⊢
  after_results <;> exact h
theorem arg4_5 (c : Dev nD) : W5 m ρ c (Proc.devRef .tc main_arg4) = m ((c.tc : Thread nD τ).loc main_arg4) := by
  have h := arg4_4 m ρ c
  show StableHlo.after hostOps1 (W4 m ρ c) (Proc.devRef .tc main_arg4) = _
  generalize W4 m ρ c = U at h ⊢
  after_results <;> exact h
theorem arg5_5 (c : Dev nD) : W5 m ρ c (Proc.devRef .tc main_arg5) = m ((c.tc : Thread nD τ).loc main_arg5) := by
  have h := arg5_4 m ρ c
  show StableHlo.after hostOps1 (W4 m ρ c) (Proc.devRef .tc main_arg5) = _
  generalize W4 m ρ c = U at h ⊢
  after_results <;> exact h

/-! ## At the second region's exit: again every buffer that is not one of the region's arrays is as at entry -/

theorem src_6 (c : Dev nD) : W6 m ρ c (Proc.devRef .tc main_v3) = val_main_v3 (F := F) (m ((c.tc : Thread nD τ).loc main_arg1)) :=
  (W6_of_ne m ρ c main_v3 (by decide)).trans (src_5 m ρ c)
theorem dst_6 (c : Dev nD) : W6 m ρ c (Proc.devRef .tc main_v6) = val_main_v6 (F := F) (m ((c.tc : Thread nD τ).loc main_arg1)) :=
  (W6_of_ne m ρ c main_v6 (by decide)).trans (dst_5 m ρ c)
theorem nrm_6 (c : Dev nD) : W6 m ρ c (Proc.devRef .tc main_v31) = val_main_v32 (F := F) (m ((c.tc : Thread nD τ).loc main_arg1)) :=
  (W6_of_ne m ρ c main_v31 (by decide)).trans (nrm_5 m ρ c)
theorem arg5_6 (c : Dev nD) : W6 m ρ c (Proc.devRef .tc main_arg5) = m ((c.tc : Thread nD τ).loc main_arg5) :=
  (W6_of_ne m ρ c main_arg5 (by decide)).trans (arg5_5 m ρ c)

/-! ## At the return: gather the second product's rows, scale, scatter-add, add the second bias -/

/-- The result, given that the second region left the second product in its output array. -/
theorem result_of (c : Dev nD) (x0 : Vec F S100000x64 .f32) (x2 : Vec F S64x48 .f32) (x3 : Vec F S48 .f32) (x4 : Vec F S48x32 .f32)
    (hprod : W6 m ρ c (Proc.devRef .tc main_v47) = val_main_v50 (F := F) x0 (m ((c.tc : Thread nD τ).loc main_arg1)) x2 x3 x4) :
    W7 m ρ c (Proc.devRef .tc main_v63)
      = val_main_v81 (F := F) x0 (m ((c.tc : Thread nD τ).loc main_arg1)) x2 x3 x4 (m ((c.tc : Thread nD τ).loc main_arg5)) := by
  have h2 := src_6 m ρ c
  have h3 := nrm_6 m ρ c
  have h4 := dst_6 m ρ c
  have h5 := arg5_6 m ρ c
  show StableHlo.after hostOps2 (W6 m ρ c) (Proc.devRef .tc main_v63) = _
  generalize W6 m ρ c = U at hprod h2 h3 h4 h5 ⊢
  after_results_simp
  rw [hprod, h2, h3, h4, h5]
  rfl

end AnyFamily

/-! ## On the extended reals: the two regions' arrays, and the result -/

section OnTheReals

variable (m : (ℓ : Loc nD τ sig) → Buf (Elt Ideal) ℓ) (ρ : Dev nD → PrngReg)

/-- The first region leaves the product of the input array with the first weights: the reference's first
    `dot_general` stage. -/
theorem prod_4 (c : Dev nD) : W4 m ρ c (Proc.devRef .tc main_v32)
    = val_main_v17 (F := Ideal) (m ((c.tc : Thread nD τ).loc main_arg0)) (m ((c.tc : Thread nD τ).loc main_arg2)) := by
  have h0 := arg0_3 m ρ c
  have h2 := arg2_3 m ρ c
  refine (W4_arr m ρ c 2).trans ((Cert.KernelIdeal.Layers.array_first (V3 m ρ) c).trans ?_)
  show Cert.Dense.rowsTimes (a := 100000) (b := 64) (c := 48) (W3 m ρ c (Proc.devRef .tc main_arg0)) (W3 m ρ c (Proc.devRef .tc main_arg2)) = _
  generalize W3 m ρ c = U at h0 h2 ⊢
  rw [h0, h2]
  exact (Cert.ReferenceIdeal.Stages.first_product _ _).symm

/-- The second region leaves the reference's second `dot_general` stage: its input rows are the first
    layer's aggregate, its one-row operand the bias, and it shifts, clamps and multiplies. -/
theorem prod_6 (c : Dev nD) : W6 m ρ c (Proc.devRef .tc main_v47)
    = val_main_v50 (F := Ideal) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  have h1 := agg_5 m ρ c _ _ (prod_4 m ρ c)
  have h2 := row_5 m ρ c
  have h3 := arg4_5 m ρ c
  refine (W6_arr m ρ c 3).trans ((Cert.KernelIdeal.Layers.array_second (V5 m ρ) c).trans ?_)
  show Cert.Dense.rowsTimes (a := 100000) (b := 48) (c := 32)
      (Cert.Dense.shiftClamp (a := 100000) (b := 48) (W5 m ρ c (Proc.devRef .tc main_v45)) (W5 m ρ c (Proc.devRef .tc main_v46)))
      (W5 m ρ c (Proc.devRef .tc main_arg4)) = _
  generalize W5 m ρ c = U at h1 h2 h3 ⊢
  rw [h1, h2, h3]
  exact (Cert.ReferenceIdeal.Stages.second_product _ _ _ _ _ _
    (fun k => ValueIdx.shapeCast_a_1a_apply (m ((c.tc : Thread nD τ).loc main_arg3)) shapeCasts_S48_S1x48 (0 : Fin 1) k)).symm

/-- The kernel program's result array, as the fold through @main leaves it, is the reference's last stage
    applied to the kernel's six argument arrays. -/
theorem result_7 (c : Dev nD) : W7 m ρ c (Proc.devRef .tc main_v63)
    = val_main_v81 (F := Ideal) (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) :=
  result_of m ρ c _ _ _ _ (prod_6 m ρ c)

end OnTheReals

end Cert.KernelIdeal.Fold

end
-- ==== Proof.lean ====
/-
  Two-layer graph convolution: the Pallas program against the jnp reference, over the extended reals.

  Both programs build the same edge lists with self-loops from the integer input, the same degrees,
  inverse square roots and per-edge normalisation, and aggregate each layer the same way (gather rows by
  source, scale, scatter-add by destination) with literally the same host operations. They differ in
  three places only. The kernel computes each layer's dense product x·W in a pallas_call over ten row
  blocks, rounding both factors to bf16 first; the reference uses one host `dot_general`. On the extended
  reals the rounding is the identity and both are the sum over k of x(p, k)·W(k, q), and a row block of a
  product is the product of the row block (Proof/Dense.lean, Proof/Layers.lean, Proof/RefStages.lean).
  The kernel adds the first bias and clamps at zero inside its second body, on each staged block; the
  reference does both on the host over the whole array: entry by entry the same max (h + b) 0. And the
  reference computes the normalisation once per layer, the kernel once: the same function of the edge
  list. No law that needs finite values is used, so the precondition is never opened.

  Proof/Fold.lean walks the kernel program's boundaries and identifies its result with the reference's
  last stage applied to the kernel's arguments; the reference's run gives the same stage of its own
  arguments, which agree. The frames of the two kernel programs are the generated ones; the reference's
  is its run with the result dropped; the ideal pass rewrote nothing, so `preserves` asks nothing.
-/
import proofs.«161945_j66262755442783_1_alg».proof.Defs
import proofs.«161945_j66262755442783_1_alg».proof.Proof.Gen.Kernel
import proofs.«161945_j66262755442783_1_alg».proof.Proof.Gen.Kernel.Skeleton
import proofs.«161945_j66262755442783_1_alg».proof.Proof.Gen.Kernel.Launch
import proofs.«161945_j66262755442783_1_alg».proof.Proof.Gen.Kernel.Points
import proofs.«161945_j66262755442783_1_alg».proof.Proof.Gen.Kernel.Frame
import proofs.«161945_j66262755442783_1_alg».proof.Proof.Gen.KernelIdeal
import proofs.«161945_j66262755442783_1_alg».proof.Proof.Gen.KernelIdeal.Skeleton
import proofs.«161945_j66262755442783_1_alg».proof.Proof.Gen.KernelIdeal.Launch
import proofs.«161945_j66262755442783_1_alg».proof.Proof.Gen.KernelIdeal.Points
import proofs.«161945_j66262755442783_1_alg».proof.Proof.Gen.KernelIdeal.Frame
import proofs.«161945_j66262755442783_1_alg».proof.Proof.Gen.ReferenceIdeal
import proofs.«161945_j66262755442783_1_alg».proof.Proof.Gen.Pre_finite_inputs
import proofs.«161945_j66262755442783_1_alg».proof.Proof.RefRun
import proofs.«161945_j66262755442783_1_alg».proof.Proof.RefRead
import proofs.«161945_j66262755442783_1_alg».proof.Proof.WholeRun
import proofs.«161945_j66262755442783_1_alg».proof.Proof.Fold
import Idealize.ShloMosaic.Adequacy
import Idealize.ShloMosaic.Init

noncomputable section

namespace Cert.Proof

open Idealize.ShloMosaic Idealize.SL.Sem

theorem frame_kernel : Cert.frame_Kernel :=
  fun m ρ _ => Cert.Kernel.Gen.frame m ρ

theorem frame_kernel_ideal : Cert.frame_KernelIdeal :=
  fun m ρ _ => Cert.KernelIdeal.Gen.frame m ρ

/-- The reference has no kernel: its frame is its run with the result dropped. -/
theorem frame_reference : Cert.frame_ReferenceIdeal :=
  fun m ρ _ => (θ_run Cert.ReferenceIdeal.defs _ _).mono (fun _ h c => (h c).2) (Cert.ReferenceIdeal.ValueP.run (F := Ideal) m ρ)

/-- Both programs end with the reference's last stage applied to the (agreeing) argument arrays. -/
theorem algebraic : Cert.algebraic_KernelIdeal_ReferenceIdeal := by
  intro m ρ m' ρ' _ hagree
  refine ⟨fun c => Cert.ReferenceIdeal.ReadP.val_main_v81 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Fold.result_7 m ρ c), (h c).2⟩)
      (Cert.KernelIdeal.Whole.run (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v81_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
